-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S2x256 : S_.BroadcastsInDim S2x256 (![] : Fin 0 → Fin S2x256.rank)
  reducesTo_S2x256_S_d0_1 : S2x256.ReducesTo [0, 1] S_
  bcast_S_S2x1 : S_.BroadcastsInDim S2x1 (![] : Fin 0 → Fin S2x1.rank)
  reducesTo_S2x1_S_d0_1 : S2x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S2x1 .f32) (main_arg15 : FVec F S1 .f32) (main_v63 : IVec S_ 1) (main_v67 : IVec S_ 1) : IVec S_ 1 :=
  let main_v68 : IVec S_ 1 := andi main_v63 main_v67
  let main_v69 : FVec F S2x1 .f32 := Host.absf main_arg14
  let main_cst_26 : FVec F S_ .f32 := constant S_ .f32 0x7F800000#32
  let main_v70 : FVec F S2x1 .f32 := broadcastInDim S2x1 ![] bcast_S_S2x1 main_cst_26
  let main_v71 : IVec S2x1 1 := cmpf .olt main_v69 main_v70
  let main_c_27 : IVec S_ 1 := constantI S_ 1 1#1
  let main_v72 : IVec S_ 1 := (fun x v => Host.reduce IntOp.andi x v reducesTo_S2x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S256 .f32) (main_arg12 : FVec F S2x256 .f32) (main_arg13 : FVec F S256 .f32) (main_arg14 : FVec F S2x1 .f32) (main_arg15 : FVec F S1 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S2x256 .f32 := Host.absf main_arg12
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg8
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x256 .f32 := Host.absf main_arg10
  let main_cst_18 : FVec F S_ .f32 := constant S_ .f32 0x7F800000#32
  let main_v50 : FVec F S32x256 .f32 := broadcastInDim S32x256 ![] bcast_S_S32x256 main_cst_18
  fn_part3 (F := F) main_arg11 main_arg12 main_arg13 main_arg14 main_arg15 main_v48 main_v49 main_v50

def fn_part1 {F : FTy → Type} [FloatOps F] (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S4096x128 .f32) (main_arg1 : FVec F S8192x2 .f32) (main_arg2 : FVec F S128x32 .f32) (main_arg3 : FVec F S32 .f32) (main_arg4 : FVec F S32x32 .f32) (main_arg5 : FVec F S32 .f32) (main_arg6 : FVec F S32x32 .f32) (main_arg7 : FVec F S32 .f32) (main_arg8 : FVec F S32x32 .f32) (main_arg9 : FVec F S32 .f32) (main_arg10 : FVec F S32x256 .f32) (main_arg11 : FVec F S256 .f32) (main_arg12 : FVec F S2x256 .f32) (main_arg13 : FVec F S256 .f32) (main_arg14 : FVec F S2x1 .f32) (main_arg15 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S4096x32 : Shape := ⟨2, ![4096, 32]⟩
abbrev S1x32 : Shape := ⟨2, ![1, 32]⟩
abbrev S4096x256 : Shape := ⟨2, ![4096, 256]⟩
abbrev S1x256 : Shape := ⟨2, ![1, 256]⟩
abbrev S8192x256 : Shape := ⟨2, ![8192, 256]⟩
abbrev S8192x1 : Shape := ⟨2, ![8192, 1]⟩
abbrev S1x1 : Shape := ⟨2, ![1, 1]⟩
abbrev S8192 : Shape := ⟨1, ![8192]⟩
abbrev S1x8192 : Shape := ⟨2, ![1, 8192]⟩
abbrev S4096x8192 : Shape := ⟨2, ![4096, 8192]⟩
abbrev S1024x256 : Shape := ⟨2, ![1024, 256]⟩
abbrev S1x1024 : Shape := ⟨2, ![1, 1024]⟩
abbrev S1024x1024 : Shape := ⟨2, ![1024, 1024]⟩
abbrev S33554432 : Shape := ⟨1, ![33554432]⟩

abbrev nBuf : Space → Nat
  | .hbm => 54
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S8192x2, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x256, .f32⟩
  | .hbm, ⟨11, _⟩ => ⟨S256, .f32⟩
  | .hbm, ⟨12, _⟩ => ⟨S2x256, .f32⟩
  | .hbm, ⟨13, _⟩ => ⟨S256, .f32⟩
  | .hbm, ⟨14, _⟩ => ⟨S2x1, .f32⟩
  | .hbm, ⟨15, _⟩ => ⟨S1, .f32⟩
  | .hbm, ⟨16, _⟩ => ⟨S4096x32, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x1, .f32⟩
  | .hbm, ⟨45, _⟩ => ⟨S1x1, .f32⟩
  | .hbm, ⟨46, _⟩ => ⟨S8192x1, .f32⟩
  | .hbm, ⟨47, _⟩ => ⟨S8192x1, .f32⟩
  | .hbm, ⟨48, _⟩ => ⟨S8192, .f32⟩
  | .hbm, ⟨49, _⟩ => ⟨S4096x256, .bf16⟩
  | .hbm, ⟨50, _⟩ => ⟨S8192x256, .bf16⟩
  | .hbm, ⟨51, _⟩ => ⟨S1x8192, .f32⟩
  | .hbm, ⟨52, _⟩ => ⟨S4096x8192, .f32⟩
  | .hbm, ⟨53, _⟩ => ⟨S33554432, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bitsLt_bf16_f32 : FTy.bits .bf16 < FTy.bits .f32
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S4096x8192_S33554432 : S4096x8192.ShapeCasts S33554432
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S4096x32_S32x256_S4096x256_1_0_0_1_n_n_wf : DotDims.WF S4096x32 S32x256 S4096x256 [1] [0] [0] [1] [] []
  dot_S8192x2_S2x256_S8192x256_1_0_0_1_n_n_wf : DotDims.WF S8192x2 S2x256 S8192x256 [1] [0] [0] [1] [] []
  dot_S8192x2_S2x1_S8192x1_1_0_0_1_n_n_wf : DotDims.WF S8192x2 S2x1 S8192x1 [1] [0] [0] [1] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x8192.size a
  hwx0_3 : ∀ i : grid0.Coords, EltTy.bits .f32 = 32 ∨ (Rect.block (s := S4096x8192) S1024x1024.size (cc0_transform_3 i) (hinb0_3 i)).WholeWords (EltTy.packing .f32)

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S8192x2_S2x256_S8192x256_1_0_0_1_n_n : DotDims S8192x2 S2x256 S8192x256 where
  lhsContracting := [1]
  rhsContracting := [0]
  lhsNonContracting := [0]
  rhsNonContracting := [1]
  lhsBatch := []
  rhsBatch := []
  wf := dot_S8192x2_S2x256_S8192x256_1_0_0_1_n_n_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v33) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x2 : Shape := ⟨2, ![8192, 2]⟩
abbrev S128x32 : Shape := ⟨2, ![128, 32]⟩
abbrev S32 : Shape := ⟨1, ![32]⟩
abbrev S32x32 : Shape := ⟨2, ![32, 32]⟩
abbrev S32x256 : Shape := ⟨2, ![32, 256]⟩
abbrev S256 : Shape := ⟨1, ![256]⟩
abbrev S2x256 : Shape := ⟨2, ![2, 256]⟩
abbrev S2x1 : Shape := ⟨2, ![2, 1]⟩
abbrev S1 : Shape := ⟨1, ![1]⟩
abbrev S4096x32 : Shape := ⟨2, ![4096, 32]⟩
abbrev S1x32 : Shape := ⟨2, ![1, 32]⟩
abbrev S4096x256 : Shape := ⟨2, ![4096, 256]⟩
abbrev S1x256 : Shape := ⟨2, ![1, 256]⟩
abbrev S8192x256 : Shape := ⟨2, ![8192, 256]⟩
abbrev S8192x1 : Shape := ⟨2, ![8192, 1]⟩
abbrev S1x1 : Shape := ⟨2, ![1, 1]⟩
abbrev S8192 : Shape := ⟨1, ![8192]⟩
abbrev S256x8192 : Shape := ⟨2, ![256, 8192]⟩
abbrev S4096x8192 : Shape := ⟨2, ![4096, 8192]⟩
abbrev S1x8192 : Shape := ⟨2, ![1, 8192]⟩
abbrev S33554432 : Shape := ⟨1, ![33554432]⟩

abbrev nBuf : Space → Nat
  | .hbm => 55
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x2, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x256, .f32⟩
  | .hbm, ⟨11, _⟩ => ⟨S256, .f32⟩
  | .hbm, ⟨12, _⟩ => ⟨S2x256, .f32⟩
  | .hbm, ⟨13, _⟩ => ⟨S256, .f32⟩
  | .hbm, ⟨14, _⟩ => ⟨S2x1, .f32⟩
  | .hbm, ⟨15, _⟩ => ⟨S1, .f32⟩
  | .hbm, ⟨16, _⟩ => ⟨S4096x32, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x256, .f32⟩
  | .hbm, ⟨37, _⟩ => ⟨S1x256, .f32⟩
  | .hbm, ⟨38, _⟩ => ⟨S4096x256, .f32⟩
  | .hbm, ⟨39, _⟩ => ⟨S4096x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x1, .f32⟩
  | .hbm, ⟨45, _⟩ => ⟨S1x1, .f32⟩
  | .hbm, ⟨46, _⟩ => ⟨S8192x1, .f32⟩
  | .hbm, ⟨47, _⟩ => ⟨S8192x1, .f32⟩
  | .hbm, ⟨48, _⟩ => ⟨S8192, .f32⟩
  | .hbm, ⟨49, _⟩ => ⟨S256x8192, .f32⟩
  | .hbm, ⟨50, _⟩ => ⟨S4096x8192, .f32⟩
  | .hbm, ⟨51, _⟩ => ⟨S1x8192, .f32⟩
  | .hbm, ⟨52, _⟩ => ⟨S4096x8192, .f32⟩
  | .hbm, ⟨53, _⟩ => ⟨S4096x8192, .f32⟩
  | .hbm, ⟨54, _⟩ => ⟨S33554432, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  transposes_S8192x256_S256x8192_1_0 : S8192x256.Transposes [1, 0] S256x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x8192_S33554432 : S4096x8192.ShapeCasts S33554432
  dot_S4096x128_S128x32_S4096x32_1_0_0_1_n_n_wf : DotDims.WF S4096x128 S128x32 S4096x32 [1] [0] [0] [1] [] []
  dot_S4096x32_S32x32_S4096x32_1_0_0_1_n_n_wf : DotDims.WF S4096x32 S32x32 S4096x32 [1] [0] [0] [1] [] []
  dot_S4096x32_S32x256_S4096x256_1_0_0_1_n_n_wf : DotDims.WF S4096x32 S32x256 S4096x256 [1] [0] [0] [1] [] []
  dot_S8192x2_S2x256_S8192x256_1_0_0_1_n_n_wf : DotDims.WF S8192x2 S2x256 S8192x256 [1] [0] [0] [1] [] []
  dot_S8192x2_S2x1_S8192x1_1_0_0_1_n_n_wf : DotDims.WF S8192x2 S2x1 S8192x1 [1] [0] [0] [1] [] []
  dot_S4096x256_S256x8192_S4096x8192_1_0_0_1_n_n_wf : DotDims.WF S4096x256 S256x8192 S4096x8192 [1] [0] [0] [1] [] []

variable [Facts₀]

def dot_S4096x128_S128x32_S4096x32_1_0_0_1_n_n : DotDims S4096x128 S128x32 S4096x32 where
  lhsContracting := [1]
  rhsContracting := [0]
  lhsNonContracting := [0]
  rhsNonContracting := [1]
  lhsBatch := []
  rhsBatch := []
  wf := dot_S4096x128_S128x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def dot_S8192x2_S2x256_S8192x256_1_0_0_1_n_n : DotDims S8192x2 S2x256 S8192x256 where
  lhsContracting := [1]
  rhsContracting := [0]
  lhsNonContracting := [0]
  rhsNonContracting := [1]
  lhsBatch := []
  rhsBatch := []
  wf := dot_S8192x2_S2x256_S8192x256_1_0_0_1_n_n_wf
def dot_S8192x2_S2x1_S8192x1_1_0_0_1_n_n : DotDims S8192x2 S2x1 S8192x1 where
  lhsContracting := [1]
  rhsContracting := [0]
  lhsNonContracting := [0]
  rhsNonContracting := [1]
  lhsBatch := []
  rhsBatch := []
  wf := dot_S8192x2_S2x1_S8192x1_1_0_0_1_n_n_wf
def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.GemmBias.lean ====
/-
  The function both programs compute, before the final flattening.

  From a left factor a : [4096, 256], a right factor b : [8192, 256] and a bias row : [1, 8192], the array
  out : [4096, 8192] with out (p, q) = (the sum over k < 256 of a (p, k) · b (q, k)) + bias (0, q):
  every row of a against every row of b, plus the bias of the column. On the extended reals; no law of
  arithmetic is needed to state it, and none beyond reading both programs at an index to reach it.
-/
import Idealize.ShloMosaic.PureOps.Ideal.Laws
import Idealize.ShloMosaic.Lib.ValueIdx

noncomputable section

namespace Cert.GemmBias

open Idealize.ShloMosaic Idealize.ShloMosaic.ValueIdx

/-- out (p, q) = Σ_k a (p, k) · b (q, k) + bias (0, q). The factors' float formats are free: on the extended reals a
    change of format is the identity. -/
def gemmBias {φ₁ φ₂ : FTy} (a : FVec Ideal ⟨2, ![4096, 256]⟩ φ₁) (b : FVec Ideal ⟨2, ![8192, 256]⟩ φ₂)
    (bias : FVec Ideal ⟨2, ![1, 8192]⟩ .f32) : FVec Ideal ⟨2, ![4096, 8192]⟩ .f32 :=
  fun i => (∑ k : Fin 256, a (ix2 (i 0) k) * b (ix2 (i 1) k)) + bias (ix2 0 (i 1))

theorem gemmBias_apply {φ₁ φ₂ : FTy} (a : FVec Ideal ⟨2, ![4096, 256]⟩ φ₁) (b : FVec Ideal ⟨2, ![8192, 256]⟩ φ₂)
    (bias : FVec Ideal ⟨2, ![1, 8192]⟩ .f32) (p : Fin 4096) (q : Fin 8192) :
    gemmBias a b bias (ix2 p q) = (∑ k : Fin 256, a (ix2 p k) * b (ix2 q k)) + bias (ix2 0 q) := rfl

end Cert.GemmBias

end
-- ==== Proof.RefValue.lean ====
/-
  The reference, read at an index.

  Before its final flattening the reference holds out (p, q) = Σ_k branch (p, k) · trunkᵀ (k, q) + bias (q), where
  trunkᵀ is the transpose of the trunk array and the bias vector is broadcast along the rows. Reading the transpose
  at (k, q) gives trunk (q, k), so this is the product of the rows of branch with the rows of trunk, plus the bias of
  the column: the function `gemmBias` of the three stages branch, trunk, bias — with the bias given as ANY [1, 8192]
  array whose entry (0, q) is the bias vector's entry q.
-/
import proofs.«175938_j42245298323680_1_alg».proof.Proof.Gen.ReferenceIdeal.Read
import proofs.«175938_j42245298323680_1_alg».proof.Proof.GemmBias

noncomputable section

namespace Cert.ReferenceIdeal.RefValue

open Cert.ReferenceIdeal Cert.ReferenceIdeal.Read Idealize.ShloMosaic Idealize.ShloMosaic.ValueIdx Cert.GemmBias

variable (x0 : (⟨S4096x128, .f32⟩ : BufTy).Contents (Elt Ideal)) (x1 : (⟨S8192x2, .f32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (x8 : (⟨S32x32, .f32⟩ : BufTy).Contents (Elt Ideal)) (x9 : (⟨S32, .f32⟩ : BufTy).Contents (Elt Ideal)) (x10 : (⟨S32x256, .f32⟩ : BufTy).Contents (Elt Ideal)) (x11 : (⟨S256, .f32⟩ : BufTy).Contents (Elt Ideal)) (x12 : (⟨S2x256, .f32⟩ : BufTy).Contents (Elt Ideal)) (x13 : (⟨S256, .f32⟩ : BufTy).Contents (Elt Ideal)) (x14 : (⟨S2x1, .f32⟩ : BufTy).Contents (Elt Ideal)) (x15 : (⟨S1, .f32⟩ : BufTy).Contents (Elt Ideal))

/-- The left factor of the product at output (p, q) and contraction k sits at (p, k) of the branch stage. -/
theorem left_index (p : Fin 4096) (q : Fin 8192) (k : Fin 256) : lidx_main_v34 (ix2 p q) k = ix2 p k :=
  funext fun a => match a with | ⟨0, _⟩ => rfl | ⟨1, _⟩ => rfl

/-- The right factor sits at (k, q) of the transposed trunk, which is (q, k) of the trunk stage. -/
theorem right_index (p : Fin 4096) (q : Fin 8192) (k : Fin 256) : idx_main_v33 (ridx_main_v34 (ix2 p q) k) = ix2 q k :=
  funext fun a => match a with | ⟨0, _⟩ => rfl | ⟨1, _⟩ => rfl

/-- The bias broadcast along the rows is read, at (p, q), at entry q of the bias vector. -/
theorem bias_index (p : Fin 4096) (q : Fin 8192) : idx_main_v35 (idx_main_v36 (ix2 p q)) = ix1 q :=
  funext fun a => match a with | ⟨0, _⟩ => rfl

/-- The sum stage (before the flattening) is `gemmBias` of the branch stage, the trunk stage and the bias row. -/
theorem sum_stage_eq (bias : FVec Ideal ⟨2, ![1, 8192]⟩ .f32)
    (hb : ∀ q : Fin 8192, bias (ix2 0 q) = val_main_v32 (F := Ideal) x1 x14 x15 (ix1 q)) :
    val_main_v37 (F := Ideal) x0 x1 x2 x3 x4 x5 x6 x7 x8 x9 x10 x11 x12 x13 x14 x15
      = gemmBias (φ₁ := .f32) (φ₂ := .f32) (val_main_v23 (F := Ideal) x0 x2 x3 x4 x5 x6 x7 x8 x9 x10 x11) (val_main_v27 (F := Ideal) x1 x12 x13) bias := by
  funext i
  obtain ⟨p, q, rfl⟩ : ∃ (p : Fin 4096) (q : Fin 8192), i = ix2 p q := ⟨i 0, i 1, eq_ix2 i⟩
  rw [gemmBias_apply, hb, val_main_v37_apply, val_main_v34_apply, val_main_v36_apply, val_main_v35_apply, bias_index]
  show (∑ k : Fin 256, _) + _ = _
  refine congrArg (· + _) (Finset.sum_congr rfl fun k _ => ?_)
  rw [val_main_v33_apply, left_index, right_index]

end Cert.ReferenceIdeal.RefValue

end
-- ==== Proof.LibMatmulNT.lean ====
/-
  The matrix product with the right operand transposed, read at an index.

  For the dimension numbers of an M×K by N×K product (each operand contracted on its second axis; no batch axes), the
  kernel's product into a zero accumulator and the host's dot_general both read, at (p, q), the sum over k of the left
  operand at (p, k) times the right operand at (q, k): row p of the left operand against row q of the right one.
-/
import Idealize.ShloMosaic.PureOps.Ideal.Laws
import Idealize.ShloMosaic.Lib.ValueIdx

noncomputable section

namespace Cert.MatmulNT

open Idealize.ShloMosaic Idealize.ShloMosaic.ValueIdx

/-- The left operand's index at output (p, q) and contraction k is (p, k). -/
theorem lhsIdx_nt {M K N : Nat} (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 p q) _).trans hk

/-- The right operand's index at output (p, q) and contraction k is (q, k): its free axis is its FIRST, and it feeds
    the output's second. -/
theorem rhsIdx_nt {M K N : Nat} (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 p q) _).trans hk

/-- THE KERNEL'S PRODUCT INTO THE ZERO CONSTANT, READ AT (p, q): the sum over k of l (p, k) · r (q, k). -/
theorem matmul_nt_apply {M K N : Nat} {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  rw [lhsIdx_nt, rhsIdx_nt]

/-- THE HOST'S dot_general WITH THE SAME DIMENSION NUMBERS, READ AT (p, q). -/
theorem dotGeneral_nt_apply {M K N : Nat} {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply, ← Equiv.sum_comp (contrEquiv1 (DotDims.transposedRhs M K N) K rfl rfl).symm]
  refine Finset.sum_congr rfl fun k _ => ?_
  rw [lhsIdx_nt, rhsIdx_nt]

end Cert.MatmulNT

end
-- ==== Proof.Tile.lean ====
/-
  One tile of the kernel.

  At a grid point the body loads a [1024, 256] block x0 of the left factor, a [1024, 256] block x1 of the right factor
  and a [1, 1024] block x2 of the bias row, and stores the [1024, 1024] tile
      tile (r, s) = Σ_k x0 (r, k) · x1 (s, k) + x2 (0, s):
  the product of x0 with the transpose of x1 into a zero accumulator, plus the bias row broadcast down the rows.
  When the three blocks are rows [1024·i₀, 1024·i₀ + 1024) of the left factor, rows [1024·i₁, 1024·i₁ + 1024) of the
  right factor and columns [1024·i₁, 1024·i₁ + 1024) of the bias row, that tile is the block (i₀, i₁) of `gemmBias`.
-/
import proofs.«175938_j42245298323680_1_alg».proof.Proof.Gen.KernelIdeal.Skeleton
import proofs.«175938_j42245298323680_1_alg».proof.Proof.LibMatmulNT
import proofs.«175938_j42245298323680_1_alg».proof.Proof.GemmBias
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx Cert.GemmBias

/-- The bias block broadcast down the rows, read at (r, s), is the block's entry (0, s). -/
theorem bias_rows (x2 : FVec Ideal S1x1024 .f32) (r s : Fin 1024) :
    broadcastTo S1024x1024 x2 broadcasts_S1x1024_S1024x1024 (ix2 r s) = x2 (ix2 0 s) :=
  broadcastTo_apply x2 broadcasts_S1x1024_S1024x1024 (ix2 r s) (ix2 0 s) (fun a => match a with
    | ⟨0, _⟩ => by show (0 : Nat) = if (1 : Nat) = 1 then 0 else r.val; rw [if_pos rfl]
    | ⟨1, _⟩ => by show s.val = if (1024 : Nat) = 1 then 0 else s.val; rw [if_neg (by decide)])

/-- The stored tile at (r, s). -/
theorem tile_apply (x0 x1 : FVec Ideal S1024x256 .bf16) (x2 : FVec Ideal S1x1024 .f32) (r s : Fin 1024) :
    k0_pay1 (F := Ideal) x0 x1 x2 (ix2 r s) = (∑ k : Fin 256, x0 (ix2 r k) * x1 (ix2 s k)) + x2 (ix2 0 s) := by
  unfold k0_pay1
  simp only [shapeCast_self]
  rw [addf_apply, bias_rows]
  refine congrArg (· + _) ?_
  exact Cert.MatmulNT.matmul_nt_apply (M := 1024) (K := 256) (N := 1024) none x0 x1 r s

/-- A tile whose blocks are the matching rows of the factors and columns of the bias row is a block of `gemmBias`. -/
theorem tile_eq_block (a : FVec Ideal ⟨2, ![4096, 256]⟩ .bf16) (b : FVec Ideal ⟨2, ![8192, 256]⟩ .bf16)
    (bias : FVec Ideal ⟨2, ![1, 8192]⟩ .f32) (x0 x1 : FVec Ideal S1024x256 .bf16) (x2 : FVec Ideal S1x1024 .f32)
    (r s : Fin 1024) (P : Fin 4096) (Q : Fin 8192)
    (hx0 : ∀ k : Fin 256, x0 (ix2 r k) = a (ix2 P k)) (hx1 : ∀ k : Fin 256, x1 (ix2 s k) = b (ix2 Q k))
    (hx2 : x2 (ix2 0 s) = bias (ix2 0 Q)) :
    k0_pay1 (F := Ideal) x0 x1 x2 (ix2 r s) = gemmBias a b bias (ix2 P Q) := by
  rw [tile_apply, gemmBias_apply, hx2]
  exact congrArg (· + _) (Finset.sum_congr rfl fun k _ => by rw [hx0, hx1])

end Cert.KernelIdeal.Tile

end
-- ==== Proof.Blocks.lean ====
/-
  From tiles to the whole array.

  The grid is 4 × 8. At point t the output window's block index is (i₀, i₁) = the point's coordinates; the left
  factor's window sits at block (i₀, 0), the right factor's at (i₁, 0) and the bias row's at (0, i₁). So the three input
  blocks at t are rows [1024·i₀, …) of the left factor, rows [1024·i₁, …) of the right factor and columns [1024·i₁, …)
  of the bias row, and what the point writes back is block (i₀, i₁) of `gemmBias` of the three arrays as the region
  finds them. The 32 output blocks tile [4096, 8192], so after the run the output array IS that function.
-/
import proofs.«175938_j42245298323680_1_alg».proof.Proof.Gen.KernelIdeal.Frame
import proofs.«175938_j42245298323680_1_alg».proof.Proof.Tile

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.GemmBias
open Idealize.ShloMosaic.Pipeline (Dat Cfg Window)

variable (m : (ℓ : Loc nD τ sig) → Buf (Elt Ideal) ℓ)

/-- The output array's contents after the run, from the three arrays the region finds. -/
abbrev out (c : Dev nD) : FVec Ideal ⟨2, ![4096, 8192]⟩ .f32 :=
  gemmBias (φ₁ := .bf16) (φ₂ := .bf16) (V m c main_v33) (V m c main_v34) (V m c main_v35)

theorem origin : (![0, 0] : Fin 2 → Nat) = fun _ => 0 := funext fun a => by fin_cases a <;> rfl

/-- The printed index maps, decided over the 32 grid points. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 7 :=
  (by decide +kernel : ∀ t : Fin grid0.N, _)

/-- Every block position of the output is some point's. -/
theorem idx_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- WHAT POINT t WRITES BACK is block t of `out`. -/
theorem flushed_eq (c : Dev nD) (t : Fin cfg0.N) :
    (dats m 0 c).flushed 3 t = ((cfg0.win 3).blk t).view.read (Elt Ideal) (out m c) := by
  show (cfg0.win 3).cut (grid0.coords t) ((dats m 0 c).after 3 t) = _
  rw [after0_3]
  unfold out0_3
  rw [View.canon_unit_zero origin]
  simp only [View.ld_unit_zero (S := S1024x256) origin, View.ld_unit_zero (S := S1x1024) origin]
  obtain ⟨e0, e1, e2, e3, e4, e5, e6, e7⟩ := idx_facts t
  funext j
  have hj0 : (j 0).val < 1024 := (j 0).isLt
  have hj1 : (j 1).val < 1024 := (j 1).isLt
  show k0_pay1 (F := Ideal) (iblk m c 0 t) (iblk m c 1 t) (iblk m c 2 t) j = out m c (((cfg0.win 3).blk t).view.emb j)
  have hj : j = ix2 (n0 := 1024) (n1 := 1024) (j 0) (j 1) := eq_ix2 j
  have hE : ((cfg0.win 3).blk t).view.emb j
      = ix2 (n0 := 4096) (n1 := 8192) ⟨win0_3.index t (0 : Fin 2) * 1024 + (j 0).val, by omega⟩
          ⟨win0_3.index t (1 : Fin 2) * 1024 + (j 1).val, by omega⟩ := by
    funext a; apply Fin.ext
    match a with
    | ⟨0, _⟩ => show win0_3.index t (0 : Fin 2) * 1024 + 1 * (j 0).val = win0_3.index t (0 : Fin 2) * 1024 + (j 0).val; omega
    | ⟨1, _⟩ => show win0_3.index t (1 : Fin 2) * 1024 + 1 * (j 1).val = win0_3.index t (1 : Fin 2) * 1024 + (j 1).val; omega
  rw [hE]
  refine Eq.trans (congrArg (k0_pay1 (F := Ideal) (iblk m c 0 t) (iblk m c 1 t) (iblk m c 2 t)) hj) ?_
  refine Cert.KernelIdeal.Tile.tile_eq_block (V m c main_v33) (V m c main_v34) (V m c main_v35)
    (iblk m c 0 t) (iblk m c 1 t) (iblk m c 2 t) (j 0) (j 1) _ _ ?_ ?_ ?_
  · -- rows of the left factor: the window sits at block (i₀, 0)
    intro k
    show V m c main_v33 (((cfg0.win 0).blk t).view.emb (ix2 (n0 := 1024) (n1 := 256) (j 0) k)) = V m c main_v33 (ix2 _ k)
    refine congrArg (V m c main_v33) ?_
    funext a; apply Fin.ext
    match a with
    | ⟨0, _⟩ => show win0_0.index t (0 : Fin 2) * 1024 + 1 * (j 0).val = win0_3.index t (0 : Fin 2) * 1024 + (j 0).val; omega
    | ⟨1, _⟩ => show win0_0.index t (1 : Fin 2) * 256 + 1 * k.val = k.val; omega
  · -- rows of the right factor: the window sits at block (i₁, 0)
    intro k
    show V m c main_v34 (((cfg0.win 1).blk t).view.emb (ix2 (n0 := 1024) (n1 := 256) (j 1) k)) = V m c main_v34 (ix2 _ k)
    refine congrArg (V m c main_v34) ?_
    funext a; apply Fin.ext
    match a with
    | ⟨0, _⟩ => show win0_1.index t (0 : Fin 2) * 1024 + 1 * (j 1).val = win0_3.index t (1 : Fin 2) * 1024 + (j 1).val; omega
    | ⟨1, _⟩ => show win0_1.index t (1 : Fin 2) * 256 + 1 * k.val = k.val; omega
  · -- columns of the bias row: the window sits at block (0, i₁)
    show V m c main_v35 (((cfg0.win 2).blk t).view.emb (ix2 (n0 := 1) (n1 := 1024) 0 (j 1))) = V m c main_v35 (ix2 0 _)
    refine congrArg (V m c main_v35) ?_
    funext a; apply Fin.ext
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + (j 1).val; omega

/-- An index of the output array is in point t's block iff each coordinate is in the block's range on its axis. -/
theorem mem_blk (t : Fin cfg0.N) (i : S4096x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v36).slice (win0_3.rect t)).set ↔ _
  rw [View.set_slice_whole, Rect.mem_set_unit]
  exact Iff.rfl

/-- The 32 blocks tile the array: entry (p, q) lies in the block at position (p / 1024, q / 1024). -/
theorem cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE OUTPUT ARRAY after the run is `gemmBias` of the three arrays the region finds. -/
theorem final (c : Dev nD) : (dats m 0 c).arrAt 3 cfg0.N = out m c :=
  (dats m 0 c).arrAt_eq_of_cover 3 (out m c) (fun t _ => flushed_eq m c t) (fun i => cover i)

end Cert.KernelIdeal.Blocks

end
-- ==== Proof.KernelValue.lean ====
/-
  The kernel's program around its one region.

  Before the region the host computes, from the sixteen arguments, the same three stages as the reference — the
  branch network's output [4096, 256], the trunk projection [8192, 256] and the bias vector [8192] — and hands the region
  the first two narrowed to bf16 (on the extended reals a change of format is the identity) and the third reshaped to
  a row [1, 8192], whose entry (0, q) is the vector's entry q. After the region it flattens the [4096, 8192] output
  row-major. So the program's result is the flattening of `gemmBias` of those three stages.
-/
import proofs.«175938_j42245298323680_1_alg».proof.Proof.Gen.KernelIdeal.Frame
import proofs.«175938_j42245298323680_1_alg».proof.Proof.Gen.ReferenceIdeal.Read
import proofs.«175938_j42245298323680_1_alg».proof.Proof.Blocks
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo Cert.GemmBias

variable (m : (ℓ : Loc nD τ sig) → Buf (Elt Ideal) ℓ) (ρ : Dev nD → PrngReg)

set_option maxHeartbeats 2000000 in
/-- The left factor the region finds is the branch stage of the arguments (narrowed to bf16: the identity). -/
theorem left_factor (c : Dev nD) :
    V m c main_v33 = Cert.ReferenceIdeal.Read.val_main_v23 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  dsimp only [V, V0]
  simp only [hostOps0, List.flatten_cons, List.flatten_nil, List.append_nil]
  after_results_simp
  rfl

set_option maxHeartbeats 2000000 in
/-- The right factor the region finds is the trunk stage of the arguments (narrowed to bf16: the identity). -/
theorem right_factor (c : Dev nD) :
    V m c main_v34 = Cert.ReferenceIdeal.Read.val_main_v27 (F := Ideal) (m ((c : Thread nD τ).loc main_arg1)) (m ((c : Thread nD τ).loc main_arg12)) (m ((c : Thread nD τ).loc main_arg13)) := by
  dsimp only [V, V0]
  simp only [hostOps0, List.flatten_cons, List.flatten_nil, List.append_nil]
  after_results_simp
  rfl

set_option maxHeartbeats 2000000 in
/-- The bias row the region finds holds, at (0, q), entry q of the bias stage: a vector reshaped to a one-row array
    keeps its row-major order. -/
theorem bias_row (c : Dev nD) (q : Fin 8192) :
    V m c main_v35 (ix2 0 q) = Cert.ReferenceIdeal.Read.val_main_v32 (F := Ideal) (m ((c : Thread nD τ).loc main_arg1)) (m ((c : Thread nD τ).loc main_arg14)) (m ((c : Thread nD τ).loc main_arg15)) (ix1 q) := by
  dsimp only [V, V0]
  simp only [hostOps0, List.flatten_cons, List.flatten_nil, List.append_nil]
  after_results_simp
  refine (shapeCast_apply _ shapeCasts_S8192_S1x8192 (ix2 0 q) (ix1 q) ?_).trans ?_
  · rewrite [Shape.rowMajor_val_one, Shape.rowMajor_val_two]
    show q.val = 0 * 8192 + q.val
    omega
  · rfl

/-- The program's result buffer after the host lines that follow the region: the output array, flattened. -/
theorem result_eq (c : Dev nD) :
    Pipeline.afterTail₀ cfgs (dats m) 0 (V0 m) [hostOps1] c main_v37
      = shapeCast S33554432 (Blocks.out m c) shapeCasts_S4096x8192_S33554432 := by
  unfold Pipeline.afterTail₀
  show StableHlo.after hostOps1 _ (Proc.devRef .tc main_v37) = _
  after_results
  exact congrArg (fun X => shapeCast S33554432 X shapeCasts_S4096x8192_S33554432)
    ((Pipeline.withArrays_arr spec0 launch0.win.arr_inj c _ _ 3).trans (Blocks.final m c))

/-- THE KERNEL PROGRAM'S RUN: every weakly fair execution terminates with the result buffer at the flattened output
    array and the arguments unchanged. -/
theorem run : θ_run defs (onTc (τ := τ) (main (F := Ideal))) ⟨m, fun _ => 0, ρ⟩ (fun r => ∀ c : Dev nD,
      r.2.mem ((c.tc : Thread nD τ).loc main_v37) = shapeCast S33554432 (Blocks.out m c) shapeCasts_S4096x8192_S33554432
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩) (run_main m ρ)

end Cert.KernelIdeal.KernelValue

end
-- ==== Proof.lean ====
/-
  A branch network's output out_b : [4096, 256], a trunk projection out_t : [8192, 256] and a bias vector : [8192] are
  computed from the sixteen arguments by the same host operations in both programs (four tanh layers and a linear head;
  two linear maps of the coordinates). From them both programs produce, flattened row-major,
      g (p, q) = Σ_{k < 256} out_b (p, k) · out_t (q, k) + bias (q).
  The reference transposes out_t and takes ONE [4096, 256] × [256, 8192] product, then adds the bias broadcast along the
  rows. The kernel narrows the two factors to bf16 (the identity on the extended reals), reshapes the bias to a row and
  tiles the output 4 × 8: each [1024, 1024] tile is the product of a [1024, 256] block of out_b with the TRANSPOSE of a
  [1024, 256] block of out_t, into a zero accumulator, plus the matching [1, 1024] block of the bias row. Every entry is
  the same sum of the same 256 products plus the same bias entry, so no law of arithmetic is needed beyond reading both
  sides at an index: GemmBias (the function), RefValue (the reference is it), Tile / Blocks (a tile is a block of it, and
  the tiles cover the array), KernelValue (the host lines around the region), and the claims below.
  The idealized kernel is the kernel's own text read on the extended reals (nothing in it was rewritten), so `preserves`
  is trivial.
-/
import proofs.«175938_j42245298323680_1_alg».proof.Defs
import proofs.«175938_j42245298323680_1_alg».proof.Proof.Gen.Kernel
import proofs.«175938_j42245298323680_1_alg».proof.Proof.Gen.Kernel.Skeleton
import proofs.«175938_j42245298323680_1_alg».proof.Proof.Gen.Kernel.Launch
import proofs.«175938_j42245298323680_1_alg».proof.Proof.Gen.Kernel.Points
import proofs.«175938_j42245298323680_1_alg».proof.Proof.Gen.Kernel.Frame
import proofs.«175938_j42245298323680_1_alg».proof.Proof.Gen.KernelIdeal
import proofs.«175938_j42245298323680_1_alg».proof.Proof.Gen.KernelIdeal.Skeleton
import proofs.«175938_j42245298323680_1_alg».proof.Proof.Gen.KernelIdeal.Launch
import proofs.«175938_j42245298323680_1_alg».proof.Proof.Gen.KernelIdeal.Points
import proofs.«175938_j42245298323680_1_alg».proof.Proof.Gen.KernelIdeal.Frame
import proofs.«175938_j42245298323680_1_alg».proof.Proof.Gen.ReferenceIdeal
import proofs.«175938_j42245298323680_1_alg».proof.Proof.Gen.ReferenceIdeal.Run
import proofs.«175938_j42245298323680_1_alg».proof.Proof.Gen.ReferenceIdeal.Read
import proofs.«175938_j42245298323680_1_alg».proof.Proof.Gen.Pre_finite_inputs
import proofs.«175938_j42245298323680_1_alg».proof.Proof.GemmBias
import proofs.«175938_j42245298323680_1_alg».proof.Proof.RefValue
import proofs.«175938_j42245298323680_1_alg».proof.Proof.Blocks
import proofs.«175938_j42245298323680_1_alg».proof.Proof.KernelValue
import Idealize.ShloMosaic.Adequacy
import Idealize.ShloMosaic.Init

noncomputable section

namespace Cert.Proof

open Idealize.ShloMosaic Idealize.ShloMosaic.TcCoe Idealize.SL.Sem

/-- The reference's flattened result of the arguments is the kernel program's: before the flattening both are
    `gemmBias` of the branch stage, the trunk stage and the bias row, the kernel's three arrays being those stages. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      = shapeCast Cert.KernelIdeal.S33554432 (Cert.KernelIdeal.Blocks.out m c) Cert.KernelIdeal.Gen.shapeCasts_S4096x8192_S33554432 := by
  unfold Cert.ReferenceIdeal.Read.val_main_v38
  refine congrArg (fun X => shapeCast Cert.KernelIdeal.S33554432 X Cert.KernelIdeal.Gen.shapeCasts_S4096x8192_S33554432) ?_
  refine (Cert.ReferenceIdeal.RefValue.sum_stage_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    (Cert.KernelIdeal.Gen.V m c Cert.KernelIdeal.main_v35) (Cert.KernelIdeal.KernelValue.bias_row m c)).trans ?_
  rw [← Cert.KernelIdeal.KernelValue.left_factor m c, ← Cert.KernelIdeal.KernelValue.right_factor m c]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the flattened `gemmBias` of the three stages. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15⟩ := hagree c
  rw [a0, a1, a2, a3, a4, a5, a6, a7, a8, a9, a10, a11, a12, a13, a14, a15]
  exact results_agree m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
